-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1700000x1 : Shape := ⟨2, ![1700000, 1]⟩
abbrev S1700000x64 : Shape := ⟨2, ![1700000, 64]⟩
abbrev S17000x64 : Shape := ⟨2, ![17000, 64]⟩
abbrev S17000x1 : Shape := ⟨2, ![17000, 1]⟩
abbrev S1x64 : Shape := ⟨2, ![1, 64]⟩
abbrev S10000 : Shape := ⟨1, ![10000]⟩
abbrev S10000x1 : Shape := ⟨2, ![10000, 1]⟩

abbrev nBuf : Space → Nat
  | .hbm => 62
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S100000x64, .f32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x64, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S17000x64, .f32⟩
  | .local _ .vmem, ⟨6, _⟩ => ⟨S17000x64, .f32⟩
  | .local _ .vmem, ⟨7, _⟩ => ⟨S17000x1, .f32⟩
  | .local _ .vmem, ⟨8, _⟩ => ⟨S17000x1, .f32⟩
  | .local _ .vmem, ⟨9, _⟩ => ⟨S17000x64, .f32⟩
  | .local _ .vmem, ⟨10, _⟩ => ⟨S17000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S17000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S17000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S17000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S17000x64_S17000x64_0_0 : ∀ a, (![0, 0] : Fin 2 → Nat) a + S17000x64.size a ≤ S17000x64.size a
  h_S17000x64 : 0 < S17000x64.numel
  shapeCasts_S17000x64_S17000x64 : S17000x64.ShapeCasts S17000x64
  inb_S17000x1_S17000x1_0_0 : ∀ a, (![0, 0] : Fin 2 → Nat) a + S17000x1.size a ≤ S17000x1.size a
  h_S17000x1 : 0 < S17000x1.numel
  shapeCasts_S17000x1_S17000x1 : S17000x1.ShapeCasts S17000x1
  broadcasts_S17000x1_S17000x64 : S17000x1.Broadcasts S17000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000x64_S1700000x1_S1700000x64_1_0_n_n_0_1_164_wf : GatherDims.WF S100000x64 S1700000x1 S1700000x64 [1] [0] [] [0] [] 1 ![1, 64]
  gather_S100000_S1700000x1_S1700000_n_0_n_n_0_1_1_wf : GatherDims.WF S100000 S1700000x1 S1700000 [] [0] [] [0] [] 1 ![1]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S17000x64.size a ≤ S1700000x64.size a
  hwx1_0 : ∀ i : grid1.Coords, EltTy.bits .f32 = 32 ∨ (Rect.block (s := S1700000x64) S17000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S17000x1.size a ≤ S1700000x1.size a
  hwx1_1 : ∀ i : grid1.Coords, EltTy.bits .f32 = 32 ∨ (Rect.block (s := S1700000x1) S17000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S17000x64.size a ≤ S1700000x64.size a
  hwx1_2 : ∀ i : grid1.Coords, EltTy.bits .f32 = 32 ∨ (Rect.block (s := S1700000x64) S17000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S17000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S17000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S17000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.MatRows.lean ====
/-
  The first region: a matrix product tiled over rows.

  Grid point `t` takes rows `10000·t … 10000·t + 9999` of `X` (a [100000, 128] array), multiplies the tile by the whole
  weight matrix (its operands narrowed to bf16, which over the extended reals changes nothing, and accumulated into
  zeros) and writes rows `10000·t …` of the [100000, 64] result. Row `r` of a tile's product is the textbook sum over the
  contracted index of row `10000·t + r` of `X` against a column of the weights: that is the whole product's entry, so the
  ten tiles, which cover the result, leave it holding the whole `dot_general`.
-/
import proofs.«124914_j31610959299128_1_alg».proof.Proof.Gen.KernelIdeal.Frame
import proofs.«124914_j31610959299128_1_alg».proof.Proof.LibAffineRows
import Idealize.ShloMosaic.Lib.Pipeline.Value
import Idealize.ShloMosaic.Lib.ValueIdx

set_option maxRecDepth 16384

noncomputable section

namespace Cert.KernelIdeal.MatRows

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The region's first operand as the region finds it: the features, [100000, 128]. -/
abbrev featIn (c : Dev nD) : FVec Ideal S100000x128 .f32 := V c main_arg0
/-- The region's second operand as the region finds it: the weights, [128, 64]. -/
abbrev weightIn (c : Dev nD) : FVec Ideal S128x64 .f32 := V c main_arg2
/-- The whole product of the region's operands, by the dimension record `d`. -/
abbrev whole (d : DotDims S100000x128 S128x64 S100000x64) (c : Dev nD) : FVec Ideal S100000x64 .f32 :=
  Host.dotGeneral (F := Ideal) d none (featIn V c) (weightIn V c)

/-! ## The tile's dimension numbers describe a plain product -/

theorem tile_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem tile_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem tile_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem tile_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- One contracted index of extent 128: the tile's columns against the weights' rows. -/
theorem plain_tile : Cert.Lib.PlainDot dot_S10000x128_S128x64_S10000x64_1_0_0_1_n_n where
  rank := rfl
  size := rfl
  l0 := tile_l0
  l1 := tile_l1
  r0 := tile_r0
  r1 := tile_r1

/-! ## A tile's product, row by row -/

/-- Where row `r` of the tile `xb` is row `nr r` of `X` and the staged weights are `W`, the tile's product at `(r, q)` is
    the whole product `X · W` at `(nr r, q)`: both are the sum over the 128 contracted positions. -/
theorem tile_apply {d : DotDims S100000x128 S128x64 S100000x64} (hd : Cert.Lib.PlainDot d)
    (xb : Vec Ideal S10000x128 .f32) (wb : Vec Ideal S128x64 .f32) (X : FVec Ideal S100000x128 .f32) (W : FVec Ideal S128x64 .f32)
    (nr : Fin 10000 → Fin 100000) (hx : ∀ r k, xb (ix2 r k) = X (ix2 (nr r) k)) (hw : ∀ k q, wb (ix2 k q) = W (ix2 k q))
    (r : Fin 10000) (q : Fin 64) :
    k0_pay1 (F := Ideal) xb wb (ix2 r q) = Host.dotGeneral (F := Ideal) d none X W (ix2 (nr r) q) := by
  show matmul (F := Ideal) dot_S10000x128_S128x64_S10000x64_1_0_0_1_n_n none (truncf .bf16 xb bitsLt_bf16_f32) (truncf .bf16 wb bitsLt_bf16_f32)
    (constant (F := Ideal) S10000x64 .f32 0x00000000#32) (ix2 r q) = _
  refine (Cert.Lib.matmul_zero_apply plain_tile xb wb bitsLt_bf16_f32 r q).trans ?_
  refine Eq.trans ?_ (Cert.Lib.dotGeneral_apply hd X W (nr r) q).symm
  exact Finset.sum_congr rfl fun k _ => by rw [hx, hw]

/-! ## The index maps, decided over the ten points -/

theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of ten thousand rows is some point's. -/
theorem index_onto : ∀ b : Fin 10, ∃ t : Fin cfg0.N, win0_2.index t = ![b.val, 0] :=
  (by decide +kernel : ∀ b : Fin 10, ∃ t : Fin grid0.N, win0_2.index t = ![b.val, 0])

/-! ## The staged blocks, read where the output's rows say -/

/-- Row `r` of the tile point `t` stages is row `n` of the region's first operand, `n` the row the output block puts `r` at. -/
theorem tile_read (c : Dev nD) (t : Fin cfg0.N) (r : Fin 10000) (k : Fin 128) (n : Fin 100000)
    (hn : n.val = win0_2.index t (0 : Fin 2) * 10000 + r.val) :
    iblk0 V c 0 t (ix2 r k) = featIn V c (ix2 n k) := by
  obtain ⟨e0, e1, e2, e3, e4, e5⟩ := index_facts t
  show V c main_arg0 (((cfg0.win 0).blk t).view.emb (ix2 r k)) = V c main_arg0 (ix2 n k)
  have h : ((cfg0.win 0).blk t).view.emb (ix2 r k) = ix2 n k := by
    funext a; apply Fin.ext
    match a with
    | ⟨0, _⟩ => show win0_0.index t (0 : Fin 2) * 10000 + 1 * r.val = n.val; omega
    | ⟨1, _⟩ => show win0_0.index t (1 : Fin 2) * 128 + 1 * k.val = k.val; omega
  rw [h]

/-- The weights are staged whole at every point. -/
theorem weights_read (c : Dev nD) (t : Fin cfg0.N) (k : Fin 128) (q : Fin 64) :
    iblk0 V c 1 t (ix2 k q) = weightIn V c (ix2 k q) := by
  obtain ⟨e0, e1, e2, e3, e4, e5⟩ := index_facts t
  show V c main_arg2 (((cfg0.win 1).blk t).view.emb (ix2 k q)) = V c main_arg2 (ix2 k q)
  have h : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  rw [h]

/-! ## What a point writes back, the cover, and the array -/

/-- Point `t` writes back its block of the whole product of the region's operands. -/
theorem flushed_eq {d : DotDims S100000x128 S128x64 S100000x64} (hd : Cert.Lib.PlainDot d) (c : Dev nD) (t : Fin cfg0.N) :
    (dat0 V c).flushed 2 t
      = ((cfg0.win 2).blk t).view.read (Elt Ideal) (whole V d c) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  have hp : p.val < 10000 := p.isLt
  have hrow : win0_2.index t (0 : Fin 2) * 10000 + p.val < 100000 := by omega
  have hemb : ((cfg0.win 2).blk t).view.emb (ix2 p q) = ix2 (⟨win0_2.index t (0 : Fin 2) * 10000 + p.val, hrow⟩ : Fin 100000) q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 64 + 1 * q.val = q.val; omega
  show k0_pay1 (F := Ideal) (iblk0 V c 0 t) (iblk0 V c 1 t) (ix2 p q)
    = whole V d c (((cfg0.win 2).blk t).view.emb (ix2 p q))
  rw [hemb]
  exact tile_apply hd (iblk0 V c 0 t) (iblk0 V c 1 t) (featIn V c) (weightIn V c)
    (fun r => ⟨win0_2.index t (0 : Fin 2) * 10000 + r.val, by have := r.isLt; omega⟩)
    (fun r k => tile_read V c t r k _ rfl) (fun k q => weights_read V c t k q) p q

/-- An index of the array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v7).slice (win0_2.rect t)).set ↔ _
  rw [View.set_slice_whole, Rect.mem_set_unit]
  exact Iff.rfl

/-- The ten blocks cover the array: row `n` is in the block of point `n / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE FIRST REGION'S RESULT: after the region its output array holds the whole product of its two operands as the
    region finds them, for any dimension record `d` of the plain [100000, 128] by [128, 64] product. -/
theorem matmul_array {d : DotDims S100000x128 S128x64 S100000x64} (hd : Cert.Lib.PlainDot d) (c : Dev nD) :
    (dat0 V c).arrAt 2 cfg0.N = whole V d c :=
  (dat0 V c).arrAt_eq_of_cover 2 _ (fun t _ => flushed_eq V hd c t) covered

end Cert.KernelIdeal.MatRows

end
-- ==== Proof.ScaleRows.lean ====
/-
  The second region: every row of the gathered features scaled by that row's normalisation factor.

  Grid point `t` takes rows `17000·t … 17000·t + 16999` of the gathered [1700000, 64] array and of the [1700000, 1]
  column of factors, broadcasts the column over the 64 features and multiplies. Entry `(r, q)` of a tile's result is
  entry `(17000·t + r, q)` of the features times entry `(17000·t + r, 0)` of the column, so the hundred tiles, which cover
  the result, leave it holding the row-scaled array.
-/
import proofs.«124914_j31610959299128_1_alg».proof.Proof.Gen.KernelIdeal.Frame
import Idealize.ShloMosaic.Lib.Pipeline.Value
import Idealize.ShloMosaic.Lib.ValueIdx

set_option maxRecDepth 16384

noncomputable section

namespace Cert.KernelIdeal.ScaleRows

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The region's first operand as the region finds it: the gathered features, [1700000, 64]. -/
abbrev msgIn (c : Dev nD) : FVec Ideal S1700000x64 .f32 := V c main_v22
/-- The region's second operand as the region finds it: one factor per row, [1700000, 1]. -/
abbrev normIn (c : Dev nD) : FVec Ideal S1700000x1 .f32 := V c main_v38

/-- The row-scaled array: entry `(n, q)` of the features times row `n`'s factor. -/
def scaled (c : Dev nD) : FVec Ideal S1700000x64 .f32 :=
  fun i => msgIn V c i * normIn V c (ix2 (⟨(i 0).val, (i 0).isLt⟩ : Fin 1700000) (0 : Fin 1))

theorem scaled_apply (c : Dev nD) (n : Fin 1700000) (q : Fin 64) :
    scaled V c (ix2 n q) = msgIn V c (ix2 n q) * normIn V c (ix2 n (0 : Fin 1)) := rfl

/-! ## A tile, entry by entry -/

/-- The tile's product at `(r, q)`: the features' entry times the column's entry of row `r`. -/
theorem scale_apply (gb : FVec Ideal S17000x64 .f32) (nb : FVec Ideal S17000x1 .f32) (r : Fin 17000) (q : Fin 64) :
    k1_pay1 (F := Ideal) gb nb (ix2 r q) = gb (ix2 r q) * nb (ix2 r (0 : Fin 1)) := by
  show mulf (F := Ideal) (φ := .f32) (shapeCast (α := Ideal .f32) S17000x64 gb shapeCasts_S17000x64_S17000x64)
    (broadcastTo (α := Ideal .f32) S17000x64 (shapeCast (α := Ideal .f32) S17000x1 nb shapeCasts_S17000x1_S17000x1) broadcasts_S17000x1_S17000x64) (ix2 r q) = _
  rw [mulf_apply, shapeCast_self, shapeCast_self]
  refine congrArg (gb (ix2 r q) * ·) ?_
  exact broadcastTo_apply nb broadcasts_S17000x1_S17000x64 (ix2 r q) (ix2 r (0 : Fin 1)) fun a => by
    match a with
    | ⟨0, _⟩ => show r.val = if (17000 : ℕ) = 1 then 0 else r.val; rw [if_neg (by decide)]
    | ⟨1, _⟩ => show (0 : ℕ) = if (1 : ℕ) = 1 then 0 else q.val; rw [if_pos rfl]

/-! ## The index maps, decided over the hundred points -/

theorem index_facts : ∀ t : Fin cfg1.N, win1_0.index t (0 : Fin 2) = win1_2.index t (0 : Fin 2)
    ∧ win1_0.index t (1 : Fin 2) = 0 ∧ win1_1.index t (0 : Fin 2) = win1_2.index t (0 : Fin 2) ∧ win1_1.index t (1 : Fin 2) = 0
    ∧ win1_2.index t (1 : Fin 2) = 0 ∧ win1_2.index t (0 : Fin 2) ≤ 99 :=
  (by decide +kernel : ∀ t : Fin grid1.N, _)

/-- Every block of seventeen thousand rows is some point's. -/
theorem index_onto : ∀ b : Fin 100, ∃ t : Fin cfg1.N, win1_2.index t = ![b.val, 0] :=
  (by decide +kernel : ∀ b : Fin 100, ∃ t : Fin grid1.N, win1_2.index t = ![b.val, 0])

/-! ## The staged blocks, read where the output's rows say -/

theorem msg_read (c : Dev nD) (t : Fin cfg1.N) (r : Fin 17000) (q : Fin 64) (n : Fin 1700000)
    (hn : n.val = win1_2.index t (0 : Fin 2) * 17000 + r.val) :
    iblk1 V c 0 t (ix2 r q) = msgIn V c (ix2 n q) := by
  obtain ⟨e0, e1, e2, e3, e4, e5⟩ := index_facts t
  show V c main_v22 (((cfg1.win 0).blk t).view.emb (ix2 r q)) = V c main_v22 (ix2 n q)
  have h : ((cfg1.win 0).blk t).view.emb (ix2 r q) = ix2 n q := by
    funext a; apply Fin.ext
    match a with
    | ⟨0, _⟩ => show win1_0.index t (0 : Fin 2) * 17000 + 1 * r.val = n.val; omega
    | ⟨1, _⟩ => show win1_0.index t (1 : Fin 2) * 64 + 1 * q.val = q.val; omega
  rw [h]

theorem norm_read (c : Dev nD) (t : Fin cfg1.N) (r : Fin 17000) (n : Fin 1700000)
    (hn : n.val = win1_2.index t (0 : Fin 2) * 17000 + r.val) :
    iblk1 V c 1 t (ix2 r (0 : Fin 1)) = normIn V c (ix2 n (0 : Fin 1)) := by
  obtain ⟨e0, e1, e2, e3, e4, e5⟩ := index_facts t
  show V c main_v38 (((cfg1.win 1).blk t).view.emb (ix2 r (0 : Fin 1))) = V c main_v38 (ix2 n (0 : Fin 1))
  have h : ((cfg1.win 1).blk t).view.emb (ix2 r (0 : Fin 1)) = ix2 n (0 : Fin 1) := by
    funext a; apply Fin.ext
    match a with
    | ⟨0, _⟩ => show win1_1.index t (0 : Fin 2) * 17000 + 1 * r.val = n.val; omega
    | ⟨1, _⟩ => show win1_1.index t (1 : Fin 2) * 1 + 1 * 0 = 0; omega
  rw [h]

/-! ## What a point writes back, the cover, and the array -/

/-- Point `t` writes back its block of the row-scaled array. -/
theorem flushed_eq (c : Dev nD) (t : Fin cfg1.N) :
    (dat1 V c).flushed 2 t = ((cfg1.win 2).blk t).view.read (Elt Ideal) (scaled V c) := by
  show (cfg1.win 2).cut (grid1.coords t) ((dat1 V c).after 2 t) = _
  rw [after1_2]
  unfold out1_2
  rw [View.canon_unit_zero origin]
  simp only [View.ld_unit_zero (S := S17000x64) origin, View.ld_unit_zero (S := S17000x1) origin]
  obtain ⟨e0, e1, e2, e3, e4, e5⟩ := index_facts t
  funext j
  obtain ⟨p, q, rfl⟩ : ∃ (p : Fin 17000) (q : Fin 64), j = ix2 p q := ⟨j 0, j 1, eq_ix2 j⟩
  have hp : p.val < 17000 := p.isLt
  have hrow : win1_2.index t (0 : Fin 2) * 17000 + p.val < 1700000 := by omega
  have hemb : ((cfg1.win 2).blk t).view.emb (ix2 p q) = ix2 (⟨win1_2.index t (0 : Fin 2) * 17000 + p.val, hrow⟩ : Fin 1700000) q := by
    funext a; apply Fin.ext
    match a with
    | ⟨0, _⟩ => show win1_2.index t (0 : Fin 2) * 17000 + 1 * p.val = win1_2.index t (0 : Fin 2) * 17000 + p.val; omega
    | ⟨1, _⟩ => show win1_2.index t (1 : Fin 2) * 64 + 1 * q.val = q.val; omega
  show k1_pay1 (F := Ideal) (iblk1 V c 0 t) (iblk1 V c 1 t) (ix2 p q) = scaled V c (((cfg1.win 2).blk t).view.emb (ix2 p q))
  rw [hemb, scaled_apply]
  refine (scale_apply (iblk1 V c 0 t) (iblk1 V c 1 t) p q).trans ?_
  rw [msg_read V c t p q ⟨win1_2.index t (0 : Fin 2) * 17000 + p.val, hrow⟩ rfl,
    norm_read V c t p ⟨win1_2.index t (0 : Fin 2) * 17000 + p.val, hrow⟩ rfl]

/-- An index of the array is in point `t`'s block iff each coordinate is in the block's range on its axis. -/
theorem mem_block (t : Fin cfg1.N) (i : S1700000x64.Idx) :
    i ∈ ((cfg1.win 2).blk t).view.set ↔ ∀ a : Fin 2, win1_2.index t a * S17000x64.size a ≤ (i a).val ∧ (i a).val < win1_2.index t a * S17000x64.size a + S17000x64.size a := by
  show i ∈ ((View.whole main_v39).slice (win1_2.rect t)).set ↔ _
  rw [View.set_slice_whole, Rect.mem_set_unit]
  exact Iff.rfl

/-- The hundred blocks cover the array: row `n` is in the block of point `n / 17000`. -/
theorem covered (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  obtain ⟨t, ht⟩ := index_onto ⟨(i 0).val / 17000, by omega⟩
  have q0 : win1_2.index t (0 : Fin 2) = (i 0).val / 17000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 17000 ≤ (i 0).val ∧ (i 0).val < win1_2.index t (0 : Fin 2) * 17000 + 17000; omega
  | ⟨1, _⟩ => show win1_2.index t (1 : Fin 2) * 64 ≤ (i 1).val ∧ (i 1).val < win1_2.index t (1 : Fin 2) * 64 + 64; omega

/-- THE SECOND REGION'S RESULT: after the region its output array holds the row-scaled array of its two operands as
    the region finds them. -/
theorem scale_array (c : Dev nD) : (dat1 V c).arrAt 2 cfg1.N = scaled V c :=
  (dat1 V c).arrAt_eq_of_cover 2 _ (fun t _ => flushed_eq V c t) covered

end Cert.KernelIdeal.ScaleRows

end
-- ==== Proof.LibLogSoftmaxRow.lean ====
/-
  The log-softmax of one row of extended reals, as both programs compute it.

  For a row `y` of `M` entries: subtract the row's largest entry `m` from each entry, and then the logarithm of the sum
  of the exponentials of those differences, so the value at `q` is `(y q - m) - log (∑ k, exp (y k - m))`. The largest
  entry is the fold of `max` over the row from `-∞`, the lattice's bottom. Both are plain functions of the row: two
  programs that feed equal rows to them get equal results, whatever tiling each of them uses.
-/
import Idealize.ShloMosaic.PureOps.Ideal

noncomputable section

namespace Cert.Lib

open Idealize.ShloMosaic

/-- The largest entry of a row: the fold of `max` from `-∞`. -/
def rowMax {M : ℕ} (y : Fin M → EReal) : EReal := (Finset.univ : Finset (Fin M)).fold max ⊥ y

/-- The row's log-softmax at `q`: the entry less the largest entry, less the logarithm of the sum over the row of the
    exponentials of the entries less the largest entry. -/
def rowLogSoftmax {M : ℕ} (y : Fin M → EReal) (q : Fin M) : EReal :=
  (y q - rowMax y) - Ideal.log (∑ k : Fin M, Ideal.exp (y k - rowMax y))

/-- Rows that agree entry by entry have the same log-softmax. -/
theorem rowLogSoftmax_congr {M : ℕ} {y z : Fin M → EReal} (h : ∀ k, y k = z k) (q : Fin M) :
    rowLogSoftmax y q = rowLogSoftmax z q := by
  rw [show y = z from funext h]

end Cert.Lib

end
-- ==== Proof.ActRows.lean ====
/-
  The third region, row by row: what the bias, rectifier and log-softmax kernel leaves in its output array.
-/
import proofs.«124914_j31610959299128_1_alg».proof.Proof.Gen.KernelIdeal.Frame
import proofs.«124914_j31610959299128_1_alg».proof.Proof.LibLogSoftmaxRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ActRows

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The region's first operand as the region finds it: the aggregated [100000, 64] array. -/
abbrev aggIn (c : Dev nD) : FVec Ideal S100000x64 .f32 := V c main_v42
/-- The region's second operand as the region finds it: the bias as one row, [1, 64]. -/
abbrev biasIn (c : Dev nD) : FVec Ideal S1x64 .f32 := V c main_v43

/-! ## Reading the tile's operations at a row and a column -/

section Layout
variable {α : Type}

/-- A column of `a` entries viewed as an `[a, 1]` array reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array spread over `b` columns reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- An exponential of a vector, at an index, is the exponential of the entry. -/
theorem exp_apply {s : Shape} {φ : FTy} (v : FVec Ideal s φ) (i : s.Idx) : exp v i = Ideal.exp (v i) := rfl
/-- A logarithm of a vector, at an index, is the logarithm of the entry. -/
theorem log_apply {s : Shape} {φ : FTy} (v : FVec Ideal s φ) (i : s.Idx) : log v i = Ideal.log (v i) := rfl

/-- Row `r` of the tile with column `k` put back on the reduced axis is the entry `(r, k)`. -/
theorem lift_row (r : Fin 10000) (k : Fin 64) : reduces_S10000x64_S10000.lift (ix1 r) k = ix2 r k := by
  funext c
  match c with
  | ⟨0, _⟩ => rfl
  | ⟨1, _⟩ => rfl

/-- The word `0xFF800000` is `-∞`. -/
theorem ofBits_negInf : FloatOps.ofBits (F := Ideal) .f32 0xFF800000#32 = (⊥ : EReal) := by
  show Ideal.ofBits .f32 0xFF800000#32 = ⊥
  simp [Ideal.ofBits, Ideal.ieee]

/-- The tile's lane maximum, kept as a column and spread back over the 64 columns, is at `(r, q)` the largest entry of row `r`. -/
theorem tile_rowMax (w : FVec Ideal S10000x64 .f32) (r : Fin 10000) (q : Fin 64) :
    broadcastTo S10000x64 (shapeCast S10000x1 (multiReduction (F := Ideal) .maximumf [1] S10000 w 0xFF800000#32 reduces_S10000x64_S10000 (.inl rfl) rfl)
        shapeCasts_S10000_S10000x1) broadcasts_S10000x1_S10000x64 (ix2 r q)
      = Cert.Lib.rowMax (fun k : Fin 64 => w (ix2 r k)) := by
  refine (broadcastTo_a1_ab_apply _ _ r q).trans ?_
  refine (shapeCast_a_a1_apply _ _ r 0).trans ?_
  refine (Ideal.multiReduction_maximumf_single w _ reduces_S10000x64_S10000 (.inl rfl) rfl (ix1 r)).trans ?_
  show (Finset.univ : Finset (Fin 64)).fold max (FloatOps.ofBits (F := Ideal) .f32 0xFF800000#32) (fun k : Fin 64 => w (reduces_S10000x64_S10000.lift (ix1 r) k)) = _
  rw [ofBits_negInf]
  unfold Cert.Lib.rowMax
  exact congrArg (fun f : Fin 64 → EReal => (Finset.univ : Finset (Fin 64)).fold max ⊥ f) (funext fun k => congrArg w (lift_row r k))

/-- The tile's lane sum of the exponentials, kept as a column: at `(r, u)` the sum over row `r`. -/
theorem tile_rowSum (e : FVec Ideal S10000x64 .f32) (r : Fin 10000) (u : Fin 1) :
    shapeCast S10000x1 (multiReduction (F := Ideal) .add [1] S10000 e 0x00000000#32 reduces_S10000x64_S10000 (.inl rfl) rfl)
        shapeCasts_S10000_S10000x1 (ix2 r u)
      = ∑ k : Fin 64, e (ix2 r k) := by
  refine (shapeCast_a_a1_apply _ _ r u).trans ?_
  refine (Ideal.multiReduction_add_single e _ reduces_S10000x64_S10000 (.inl rfl) rfl (ix1 r)).trans ?_
  show ∑ k : Fin 64, e (reduces_S10000x64_S10000.lift (ix1 r) k) = _
  exact Finset.sum_congr rfl fun k _ => congrArg e (lift_row r k)

/-- The log-softmax tile: for any tile `w`, subtracting the spread row maximum and then the spread logarithm of the row sums of
    the exponentials gives, at `(r, q)`, the log-softmax of row `r` at `q`. -/
theorem tile_logSoftmax (w : FVec Ideal S10000x64 .f32) (r : Fin 10000) (q : Fin 64) :
    subf (subf w (broadcastTo S10000x64 (shapeCast S10000x1 (multiReduction (F := Ideal) .maximumf [1] S10000 w 0xFF800000#32 reduces_S10000x64_S10000 (.inl rfl) rfl)
            shapeCasts_S10000_S10000x1) broadcasts_S10000x1_S10000x64))
        (broadcastTo S10000x64 (log (shapeCast S10000x1 (multiReduction (F := Ideal) .add [1] S10000
            (exp (subf w (broadcastTo S10000x64 (shapeCast S10000x1 (multiReduction (F := Ideal) .maximumf [1] S10000 w 0xFF800000#32 reduces_S10000x64_S10000 (.inl rfl) rfl)
              shapeCasts_S10000_S10000x1) broadcasts_S10000x1_S10000x64)))
            0x00000000#32 reduces_S10000x64_S10000 (.inl rfl) rfl) shapeCasts_S10000_S10000x1)) broadcasts_S10000x1_S10000x64) (ix2 r q)
      = Cert.Lib.rowLogSoftmax (fun k : Fin 64 => w (ix2 r k)) q := by
  unfold Cert.Lib.rowLogSoftmax
  refine (subf_apply _ _ _).trans ?_
  refine congrArg₂ (· - ·) ?_ ?_
  · refine (subf_apply _ _ _).trans ?_
    exact congrArg (w (ix2 r q) - ·) (tile_rowMax w r q)
  · refine (broadcastTo_a1_ab_apply _ _ r q).trans ?_
    refine (log_apply _ _).trans ?_
    refine congrArg Ideal.log ?_
    refine (tile_rowSum _ r 0).trans ?_
    refine Finset.sum_congr rfl fun k _ => ?_
    refine (exp_apply _ _).trans ?_
    refine congrArg Ideal.exp ?_
    refine (subf_apply _ _ _).trans ?_
    exact congrArg (w (ix2 r k) - ·) (tile_rowMax w r k)

/-- The tile before the log-softmax: bias added row by row, then the rectifier. -/
theorem tile_relu (x0 : Vec Ideal S10000x64 .f32) (x1 : Vec Ideal S1x64 .f32) (r : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 r k)
      = max (x0 (ix2 r k) + x1 (ix2 (0 : Fin 1) k)) 0 := by
  refine (maximumf_apply _ _ _).trans ?_
  refine congrArg₂ max ?_ ?_
  · refine (addf_apply _ _ _).trans ?_
    refine congrArg₂ (· + ·) ?_ ?_
    · rw [shapeCast_self]
    · refine (broadcastTo_1b_ab_apply _ _ r k).trans ?_
      rw [shapeCast_self]
  · show Ideal.ofBits .f32 0x00000000#32 = 0
    simp [Ideal.ofBits, Ideal.ieee]

/-- One tile of the third kernel, at row `r` and column `q`: the log-softmax of the row `max (x0 (r, ·) + x1 (0, ·)) 0`. -/
theorem act_payload (x0 : Vec Ideal S10000x64 .f32) (x1 : Vec Ideal S1x64 .f32) (r : Fin 10000) (q : Fin 64) :
    k2_pay1 (F := Ideal) x0 x1 (ix2 r q)
      = Cert.Lib.rowLogSoftmax (fun k : Fin 64 => max (x0 (ix2 r k) + x1 (ix2 (0 : Fin 1) k)) 0) q := by
  unfold k2_pay1
  refine (tile_logSoftmax _ r q).trans ?_
  exact Cert.Lib.rowLogSoftmax_congr (fun k => tile_relu x0 x1 r k) q

/-! ## From the tiles to the array -/

/-- The origin of a rank-2 rectangle is the zero offset on both axes. -/
theorem origin_zero : (![0, 0] : Fin 2 → Nat) = fun _ => 0 := funext fun a => by fin_cases a <;> rfl

/-- The whole output as one function of the two operands: entry `(n, q)` is the log-softmax at `q` of row `n` of the
    rectified sum of the first operand and the one-row second operand. -/
def rowsOut (a0 : FVec Ideal S100000x64 .f32) (a1 : FVec Ideal S1x64 .f32) : FVec Ideal S100000x64 .f32 :=
  fun i => Cert.Lib.rowLogSoftmax (fun k : Fin 64 => max (a0 (ix2 (n0 := 100000) (n1 := 64) (i 0) k) + a1 (ix2 (0 : Fin 1) k)) 0) (i 1)

/-- The three windows' block indices over the ten grid points: the first operand's tile moves with the output's down the rows,
    nothing moves along the columns, the one-row operand stays put, and the output's tile index is at most 9. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Each of the ten row tiles of the output is some grid point's. -/
theorem index_onto : ∀ b : Fin 10, ∃ t : Fin cfg2.N, win2_2.index t = ![b.val, 0] :=
  (by decide +kernel : ∀ b : Fin 10, ∃ t : Fin grid2.N, win2_2.index t = ![b.val, 0])

set_option maxHeartbeats 400000 in
/-- What grid point `t` writes back is its tile of `rowsOut` of the operands as the region finds them. -/
theorem flushed_eq (c : Dev nD) (t : Fin cfg2.N) :
    (dat2 V c).flushed 2 t = ((cfg2.win 2).blk t).view.read (Elt Ideal) (rowsOut (aggIn V c) (biasIn V c)) := by
  show (cfg2.win 2).cut (grid2.coords t) ((dat2 V c).after 2 t) = _
  rw [after2_2]
  unfold out2_2
  rw [View.canon_unit_zero origin_zero]
  simp only [View.ld_unit_zero (S := S10000x64) origin_zero, View.ld_unit_zero (S := S1x64) origin_zero]
  obtain ⟨e0, e1, e2, e3, e4, e5⟩ := index_facts t
  funext j
  obtain ⟨p, q, rfl⟩ : ∃ (p : Fin 10000) (q : Fin 64), j = ix2 p q := ⟨j 0, j 1, eq_ix2 j⟩
  have hp : p.val < 10000 := p.isLt
  have hrow : win2_2.index t (0 : Fin 2) * 10000 + 1 * p.val < 100000 := by omega
  show k2_pay1 (F := Ideal) (iblk2 V c 0 t) (iblk2 V c 1 t) (ix2 p q)
    = rowsOut (aggIn V c) (biasIn V c) (((cfg2.win 2).blk t).view.emb (ix2 p q))
  -- the tile's entry `(p, q)` sits in the array at row `10000 · (tile index) + p`, column `q`
  have hemb : ((cfg2.win 2).blk t).view.emb (ix2 p q)
      = ix2 (⟨win2_2.index t (0 : Fin 2) * 10000 + 1 * p.val, hrow⟩ : Fin 100000) q := by
    funext a; apply Fin.ext
    match a with
    | ⟨0, _⟩ => rfl
    | ⟨1, _⟩ => show win2_2.index t (1 : Fin 2) * 64 + 1 * q.val = q.val; omega
  refine Eq.trans ?_ (congrArg (rowsOut (aggIn V c) (biasIn V c)) hemb.symm)
  refine (act_payload _ _ p q).trans ?_
  show _ = Cert.Lib.rowLogSoftmax (fun k : Fin 64 => max (aggIn V c (ix2 (⟨win2_2.index t (0 : Fin 2) * 10000 + 1 * p.val, hrow⟩ : Fin 100000) k)
      + biasIn V c (ix2 (0 : Fin 1) k)) 0) q
  refine Cert.Lib.rowLogSoftmax_congr (fun k => ?_) q
  refine congrArg₂ (fun a b : EReal => max (a + b) 0) ?_ ?_
  · -- the first operand's tile reads the same rows of its array
    show aggIn V c (((cfg2.win 0).blk t).view.emb (ix2 p k)) = aggIn V c (ix2 (⟨win2_2.index t (0 : Fin 2) * 10000 + 1 * p.val, hrow⟩ : Fin 100000) k)
    refine congrArg (aggIn V c) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · -- the one-row operand's tile is the whole of it
    show biasIn V c (((cfg2.win 1).blk t).view.emb (ix2 (0 : Fin 1) k)) = biasIn V c (ix2 (0 : Fin 1) k)
    refine congrArg (biasIn V c) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega

/-- An index of the output array is in point `t`'s tile iff each coordinate is in the tile's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Every entry of the output array is in the tile of the grid point that handles its row: row `n` belongs to tile `n / 10000`. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The third region's output array after the region, entry `(n, q)`: the log-softmax of row `n` of the rectified
    sum of the region's first operand and its one-row second operand, as the region finds them. -/
theorem act_array (c : Dev nD) (n : Fin 100000) (q : Fin 64) :
    (dat2 V c).arrAt 2 cfg2.N (ix2 n q)
      = Cert.Lib.rowLogSoftmax (fun k : Fin 64 => max (aggIn V c (ix2 n k) + biasIn V c (ix2 (0 : Fin 1) k)) 0) q := by
  have h := (dat2 V c).arrAt_eq_of_cover 2 (rowsOut (aggIn V c) (biasIn V c)) (fun t _ => flushed_eq V c t) covered
  exact congrFun h (ix2 n q)

end Cert.KernelIdeal.ActRows

end
-- ==== Proof.HostStages.lean ====
/-
  The host operations between the regions, stretch by stretch.

  Both programs build the same index vectors (sources and targets, with the self-loops appended), the same degrees
  and inverse square roots, the same gathers and the same scatter-additions, by the same operations in the same order.
  So whatever the buffers hold when a stretch begins, what it leaves in a buffer is the plain program's stage of the
  same name applied to the same inputs: each lemma here runs one stretch (or the three stretches between the first two
  regions) from an arbitrary valuation and reads one buffer.
-/
import proofs.«124914_j31610959299128_1_alg».proof.Proof.Gen.KernelIdeal.Frame
import proofs.«124914_j31610959299128_1_alg».proof.Proof.RefRead
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]
variable (Wa : Valuation τ sig (Elt F))

/-! ## Before the first region: the two index vectors -/

/-- The sources with the self-loops appended. -/
theorem row_stage :
    after hostOps0 Wa (Proc.devRef .tc main_v5) = val_main_v6 (F := F) (Wa (Proc.devRef .tc main_arg1)) := by
  dsimp only [hostOps0]; after_results; try rfl

/-- The targets with the self-loops appended. -/
theorem col_stage :
    after hostOps0 Wa (Proc.devRef .tc main_v6) = val_main_v7 (F := F) (Wa (Proc.devRef .tc main_arg1)) := by
  dsimp only [hostOps0]; after_results; try rfl

theorem first_keeps_arg0 : after hostOps0 Wa (Proc.devRef .tc main_arg0) = Wa (Proc.devRef .tc main_arg0) := by
  dsimp only [hostOps0]; after_results; try rfl
theorem first_keeps_arg2 : after hostOps0 Wa (Proc.devRef .tc main_arg2) = Wa (Proc.devRef .tc main_arg2) := by
  dsimp only [hostOps0]; after_results; try rfl
theorem first_keeps_arg3 : after hostOps0 Wa (Proc.devRef .tc main_arg3) = Wa (Proc.devRef .tc main_arg3) := by
  dsimp only [hostOps0]; after_results; try rfl

/-! ## Between the first and the second region: degrees, their inverse square roots, the gathers -/

variable (x0 : (⟨Cert.ReferenceIdeal.S100000x128, .f32⟩ : BufTy).Contents (Elt F))
  (x1 : (⟨Cert.ReferenceIdeal.S2x1600000, .i32⟩ : BufTy).Contents (Elt F))
  (x2 : (⟨Cert.ReferenceIdeal.S128x64, .f32⟩ : BufTy).Contents (Elt F))

/-- The projected features gathered at the sources. -/
theorem gathered_stage (hrow : Wa (Proc.devRef .tc main_v5) = val_main_v6 (F := F) x1)
    (hh : Wa (Proc.devRef .tc main_v7) = val_main_v0 (F := F) x0 x2) :
    after hostOps1_2 (after hostOps1_1 (after hostOps1 Wa)) (Proc.devRef .tc main_v22) = val_main_v37 (F := F) x0 x1 x2 := by
  dsimp only [hostOps1_2, hostOps1_1, hostOps1]; after_results_simp; rw [hrow, hh]; rfl

/-- One normalisation factor per edge, as a column. -/
theorem factor_stage (hrow : Wa (Proc.devRef .tc main_v5) = val_main_v6 (F := F) x1)
    (hcol : Wa (Proc.devRef .tc main_v6) = val_main_v7 (F := F) x1) :
    after hostOps1_2 (after hostOps1_1 (after hostOps1 Wa)) (Proc.devRef .tc main_v38)
      = shapeCast _ (val_main_v30 (F := F) x1) shapeCasts_S1700000_S1700000x1 := by
  dsimp only [hostOps1_2, hostOps1_1, hostOps1]; after_results_simp; rw [hrow, hcol]; rfl

theorem middle_keeps_col :
    after hostOps1_2 (after hostOps1_1 (after hostOps1 Wa)) (Proc.devRef .tc main_v6) = Wa (Proc.devRef .tc main_v6) := by
  dsimp only [hostOps1_2, hostOps1_1, hostOps1]; after_results_simp
theorem middle_keeps_arg3 :
    after hostOps1_2 (after hostOps1_1 (after hostOps1 Wa)) (Proc.devRef .tc main_arg3) = Wa (Proc.devRef .tc main_arg3) := by
  dsimp only [hostOps1_2, hostOps1_1, hostOps1]; after_results_simp

/-! ## Between the second and the third region: the scatter-addition, and the bias as a row -/

/-- The scaled messages added up at the targets. -/
theorem aggregated_stage (hcol : Wa (Proc.devRef .tc main_v6) = val_main_v7 (F := F) x1)
    (hmsg : Wa (Proc.devRef .tc main_v39) = val_main_v40 (F := F) x0 x1 x2) :
    after hostOps2 Wa (Proc.devRef .tc main_v42) = val_main_v43 (F := F) x0 x1 x2 := by
  dsimp only [hostOps2]; after_results; rw [hcol, hmsg]; rfl

/-- The bias vector recast as one row. -/
theorem bias_stage :
    after hostOps2 Wa (Proc.devRef .tc main_v43) = shapeCast _ (Wa (Proc.devRef .tc main_arg3)) shapeCasts_S64_S1x64 := by
  dsimp only [hostOps2]; after_results; try rfl

end Cert.KernelIdeal.HostStages

end
-- ==== Proof.RefAct.lean ====
/-
  The plain program's last stretch, row by row: bias, rectifier and log-softmax of the aggregated array.
-/
import proofs.«124914_j31610959299128_1_alg».proof.Proof.RefRead
import proofs.«124914_j31610959299128_1_alg».proof.Proof.LibLogSoftmaxRow
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.RefAct

open Cert.ReferenceIdeal Cert.ReferenceIdeal.ReadP Idealize.ShloMosaic Idealize.ShloMosaic.TcCoe Idealize.SL.Sem Idealize.ShloMosaic.ValueIdx

/-- Over row `n` of a [100000, 64] array, the index with `k` put on the reduced second axis is `(n, k)`. -/
theorem lift_row (h : S100000x64.Reduces [1] S100000) (n : Fin 100000) (k : Fin 64) :
    h.lift (ix1 n) k = ix2 n k :=
  funext fun a => Fin.ext (by match a with | ⟨0, _⟩ => rfl | ⟨1, _⟩ => rfl)

/-- The reduction by `max` along the second axis from `-∞`, at row `n`: the largest entry of that row. The fold of a
    commutative and associative operation over the indices that drop to `n` is the fold over the row's 64 columns,
    and the initial value `-∞` is the lattice's bottom. -/
theorem reduce_max_row (y : (⟨S100000x64, .f32⟩ : BufTy).Contents (Elt Ideal)) (n : Fin 100000) :
    Host.reduce (FloatOps.maximumf (F := Ideal) (φ := .f32)) y (val_main_call2_cst (F := Ideal))
        Gen.reducesTo_S100000x64_S100000_d1 Gen.h_S_ (ix1 n)
      = Cert.Lib.rowMax (fun k : Fin 64 => y (ix2 n k)) := by
  have h : S100000x64.Reduces [1] S100000 := by decide
  rw [Host.reduce_eq_fold_single (FloatOps.maximumf (F := Ideal) (φ := .f32)) y (val_main_call2_cst (F := Ideal))
    Gen.reducesTo_S100000x64_S100000_d1 h Gen.h_S_ (ix1 n)]
  have hinit : (val_main_call2_cst (F := Ideal)) (Shape.Idx.first Gen.h_S_) = (⊥ : EReal) := by
    rw [val_main_call2_cst_apply]
    simp [Ideal.ofBits, Ideal.ieee]
  have hfun : (y ∘ h.lift (ix1 n)) = fun k : Fin 64 => y (ix2 n k) :=
    funext fun k => congrArg y (lift_row h n k)
  rw [hinit, hfun]
  rfl

/-- The plain program's result at `(n, q)`: the log-softmax of row `n` of the rectified sum of the aggregated array
    (the stage `val_main_v43`) and the bias vector. -/
theorem ref_act (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal)) (n : Fin 100000) (q : Fin 64) :
    val_main_v48 (F := Ideal) x0 x1 x2 x3 (ix2 n q)
      = Cert.Lib.rowLogSoftmax (fun k : Fin 64 => max (val_main_v43 (F := Ideal) x0 x1 x2 (ix2 n k) + x3 (ix1 k)) 0) q := by
  -- the rectified row, named once
  obtain ⟨r, hr⟩ : ∃ r : Fin 64 → EReal,
      r = fun k : Fin 64 => max (val_main_v43 (F := Ideal) x0 x1 x2 (ix2 n k) + x3 (ix1 k)) 0 := ⟨_, rfl⟩
  rw [← hr]
  -- bias added (the vector broadcast along the rows) and the rectifier: entry (n, k) of the rectified array is r k
  have hrow : ∀ k : Fin 64, val_main_v47 (F := Ideal) x0 x1 x2 x3 (ix2 n k) = r k := by
    intro k
    rw [val_main_v47_apply, val_main_v46_apply, val_main_v45_apply, val_main_v44_apply, val_main_call1_v0_apply,
      val_main_call1_cst_apply,
      show idx_main_v44 (idx_main_v45 (ix2 n k)) = ix1 k from
        funext fun a => Fin.ext (by match a with | ⟨0, _⟩ => rfl)]
    rw [hr]
    simp only [Ideal.maximumf_def, Ideal.addf_def, Ideal.ofBits_def, Ideal.ofBits_zero_f32]
  -- the row's largest entry; the further max with -∞ changes nothing
  have hmax : val_main_call2_v2 (F := Ideal) x0 x1 x2 x3 (ix1 n) = Cert.Lib.rowMax r := by
    rw [val_main_call2_v2_apply, val_main_call2_v1_apply, val_main_call2_cst_0_apply]
    unfold val_main_call2_v0
    rw [reduce_max_row (val_main_v47 (F := Ideal) x0 x1 x2 x3) n]
    simp only [hrow]
    have hbot : FloatOps.ofBits (F := Ideal) .f32 0xFF800000#32 = (⊥ : EReal) := by
      simp [Ideal.ofBits, Ideal.ieee]
    rw [hbot, Ideal.maximumf_def]
    exact max_eq_right bot_le
  -- entry (n, k) less the row's largest entry
  have hs : ∀ k : Fin 64, val_main_call2_v5 (F := Ideal) x0 x1 x2 x3 (ix2 n k) = r k - Cert.Lib.rowMax r := by
    intro k
    rw [val_main_call2_v5_apply, val_main_call2_v4_apply, val_main_call2_v3_apply,
      show idx_main_call2_v3 (idx_main_call2_v4 (ix2 n k)) = ix1 n from
        funext fun a => Fin.ext (by match a with | ⟨0, _⟩ => rfl),
      hmax, hrow, Ideal.subf_def]
  -- the logarithm of the row's sum of exponentials, broadcast back along the row
  have hlog : val_main_call2_v10 (F := Ideal) x0 x1 x2 x3 (ix2 n q)
      = Ideal.log (∑ k : Fin 64, Ideal.exp (r k - Cert.Lib.rowMax r)) := by
    rw [val_main_call2_v10_apply, val_main_call2_v9_apply, val_main_call2_v8_apply,
      show idx_main_call2_v8 (idx_main_call2_v10 (ix2 n q)) = ix1 n from
        funext fun a => Fin.ext (by match a with | ⟨0, _⟩ => rfl),
      val_main_call2_v7_apply, val_main_call2_cst_1_apply, Ideal.hostUnary_log_def, Ideal.ofBits_def,
      Ideal.ofBits_zero_f32, zero_add]
    refine congrArg Ideal.log (Finset.sum_congr rfl fun k _ => ?_)
    rw [show idx_main_call2_v7 (ix1 n) k = ix2 n k from
        funext fun a => Fin.ext (by match a with | ⟨0, _⟩ => rfl | ⟨1, _⟩ => rfl),
      val_main_call2_v6_apply, hs, Ideal.hostUnary_exp_def]
  rw [val_main_v48_apply, hs, hlog, Ideal.subf_def]
  rfl

end Cert.RefAct

end
-- ==== Proof.KernelValue.lean ====
/-
  The kernel program's result array is the plain program's last stage.

  The program alternates host stretches and three tiled regions. Walking the buffers' contents from the launch to the
  return: the first stretch builds the index vectors exactly as the plain program does; the first region leaves the
  whole product `X · W` (the plain program's `dot_general`); the stretches after it compute the degrees, their inverse
  square roots, the gathered features and one factor per edge by the plain program's own operations; the second region
  scales every gathered row by its factor, which is the plain program's broadcast product; the scatter-addition is the
  plain program's; and the third region's log-softmax of the rectified, biased rows is what the plain program's last
  stretch computes row by row. A reshape of a vector to a column or to a row reads the same entries as the plain
  program's broadcasts of it.
-/
import proofs.«124914_j31610959299128_1_alg».proof.Proof.MatRows
import proofs.«124914_j31610959299128_1_alg».proof.Proof.ScaleRows
import proofs.«124914_j31610959299128_1_alg».proof.Proof.ActRows
import proofs.«124914_j31610959299128_1_alg».proof.Proof.HostStages
import proofs.«124914_j31610959299128_1_alg».proof.Proof.RefRead
import proofs.«124914_j31610959299128_1_alg».proof.Proof.RefAct
import Idealize.ShloMosaic.Lib.ValueLayout

set_option maxRecDepth 16384

noncomputable section

namespace Cert.KernelValue

open Cert.KernelIdeal Cert.KernelIdeal.Gen Idealize.ShloMosaic Idealize.ShloMosaic.TcCoe Idealize.SL.Sem Idealize.ShloMosaic.ValueIdx
open Idealize.ShloMosaic.StableHlo
open Cert.ReferenceIdeal.ReadP

variable (m : (ℓ : Loc nD τ sig) → Buf (Elt Ideal) ℓ) (ρ : Dev nD → PrngReg)

/-- The four arguments as launched, at the plain program's argument types. -/
abbrev X0 (c : Dev nD) : (⟨Cert.ReferenceIdeal.S100000x128, .f32⟩ : BufTy).Contents (Elt Ideal) := m ((c : Thread nD τ).loc main_arg0)
abbrev X1 (c : Dev nD) : (⟨Cert.ReferenceIdeal.S2x1600000, .i32⟩ : BufTy).Contents (Elt Ideal) := m ((c : Thread nD τ).loc main_arg1)
abbrev X2 (c : Dev nD) : (⟨Cert.ReferenceIdeal.S128x64, .f32⟩ : BufTy).Contents (Elt Ideal) := m ((c : Thread nD τ).loc main_arg2)
abbrev X3 (c : Dev nD) : (⟨Cert.ReferenceIdeal.S64, .f32⟩ : BufTy).Contents (Elt Ideal) := m ((c : Thread nD τ).loc main_arg3)

/-- The plain program's dimension record for the whole product is a plain product's. -/
theorem plain_whole : Cert.Lib.PlainDot Cert.ReferenceIdeal.dot_S100000x128_S128x64_S100000x64_1_0_0_1_n_n where
  rank := rfl
  size := rfl
  l0 := lhs_main_v0_0
  l1 := lhs_main_v0_1
  r0 := rhs_main_v0_0
  r1 := rhs_main_v0_1

/-! ## At the first region's entry -/

theorem entry1_row (c : Dev nD) : W1 m ρ c (Proc.devRef .tc main_v5) = val_main_v6 (F := Ideal) (X1 m c) :=
  Cert.KernelIdeal.HostStages.row_stage (W0 m ρ c)
theorem entry1_col (c : Dev nD) : W1 m ρ c (Proc.devRef .tc main_v6) = val_main_v7 (F := Ideal) (X1 m c) :=
  Cert.KernelIdeal.HostStages.col_stage (W0 m ρ c)
theorem entry1_arg0 (c : Dev nD) : W1 m ρ c (Proc.devRef .tc main_arg0) = X0 m c :=
  Cert.KernelIdeal.HostStages.first_keeps_arg0 (W0 m ρ c)
theorem entry1_arg2 (c : Dev nD) : W1 m ρ c (Proc.devRef .tc main_arg2) = X2 m c :=
  Cert.KernelIdeal.HostStages.first_keeps_arg2 (W0 m ρ c)
theorem entry1_arg3 (c : Dev nD) : W1 m ρ c (Proc.devRef .tc main_arg3) = X3 m c :=
  Cert.KernelIdeal.HostStages.first_keeps_arg3 (W0 m ρ c)

/-! ## At the first region's exit: the whole product -/

theorem exit1_product (c : Dev nD) : W2 m ρ c (Proc.devRef .tc main_v7) = val_main_v0 (F := Ideal) (X0 m c) (X2 m c) := by
  refine (W2_arr m ρ c 2).trans ((Cert.KernelIdeal.MatRows.matmul_array (V1 m ρ) plain_whole c).trans ?_)
  have e0 : Cert.KernelIdeal.MatRows.featIn (V1 m ρ) c = X0 m c := entry1_arg0 m ρ c
  have e2 : Cert.KernelIdeal.MatRows.weightIn (V1 m ρ) c = X2 m c := entry1_arg2 m ρ c
  show Host.dotGeneral (F := Ideal) Cert.ReferenceIdeal.dot_S100000x128_S128x64_S100000x64_1_0_0_1_n_n none
    (Cert.KernelIdeal.MatRows.featIn (V1 m ρ) c) (Cert.KernelIdeal.MatRows.weightIn (V1 m ρ) c) = _
  rw [e0, e2]
  rfl
theorem exit1_row (c : Dev nD) : W2 m ρ c (Proc.devRef .tc main_v5) = val_main_v6 (F := Ideal) (X1 m c) :=
  (W2_of_ne m ρ c main_v5 (by decide)).trans (entry1_row m ρ c)
theorem exit1_col (c : Dev nD) : W2 m ρ c (Proc.devRef .tc main_v6) = val_main_v7 (F := Ideal) (X1 m c) :=
  (W2_of_ne m ρ c main_v6 (by decide)).trans (entry1_col m ρ c)
theorem exit1_arg3 (c : Dev nD) : W2 m ρ c (Proc.devRef .tc main_arg3) = X3 m c :=
  (W2_of_ne m ρ c main_arg3 (by decide)).trans (entry1_arg3 m ρ c)

/-! ## At the second region's entry -/

theorem entry2_gathered (c : Dev nD) :
    W5 m ρ c (Proc.devRef .tc main_v22) = val_main_v37 (F := Ideal) (X0 m c) (X1 m c) (X2 m c) :=
  Cert.KernelIdeal.HostStages.gathered_stage (W2 m ρ c) (X0 m c) (X1 m c) (X2 m c) (exit1_row m ρ c) (exit1_product m ρ c)
theorem entry2_factor (c : Dev nD) :
    W5 m ρ c (Proc.devRef .tc main_v38) = shapeCast _ (val_main_v30 (F := Ideal) (X1 m c)) shapeCasts_S1700000_S1700000x1 :=
  Cert.KernelIdeal.HostStages.factor_stage (W2 m ρ c) (X1 m c) (exit1_row m ρ c) (exit1_col m ρ c)
theorem entry2_col (c : Dev nD) : W5 m ρ c (Proc.devRef .tc main_v6) = val_main_v7 (F := Ideal) (X1 m c) :=
  (Cert.KernelIdeal.HostStages.middle_keeps_col (W2 m ρ c)).trans (exit1_col m ρ c)
theorem entry2_arg3 (c : Dev nD) : W5 m ρ c (Proc.devRef .tc main_arg3) = X3 m c :=
  (Cert.KernelIdeal.HostStages.middle_keeps_arg3 (W2 m ρ c)).trans (exit1_arg3 m ρ c)

/-! ## At the second region's exit: the scaled messages -/

/-- A vector recast as a column and spread over the features reads what the plain program's two broadcasts read. -/
theorem column_read (y : (⟨Cert.ReferenceIdeal.S1700000, .f32⟩ : BufTy).Contents (Elt Ideal)) (n : Fin 1700000) (q : Fin 64) :
    shapeCast (α := Ideal .f32) S1700000x1 y shapeCasts_S1700000_S1700000x1 (ix2 n (0 : Fin 1))
      = y (idx_main_v38 (idx_main_v39 (ix2 n q))) := by
  refine (Cert.KernelIdeal.ActRows.shapeCast_a_a1_apply y shapeCasts_S1700000_S1700000x1 n 0).trans ?_
  exact congrArg y (funext fun a => Fin.ext (by match a with | ⟨0, _⟩ => rfl))

theorem exit2_messages (c : Dev nD) :
    W6 m ρ c (Proc.devRef .tc main_v39) = val_main_v40 (F := Ideal) (X0 m c) (X1 m c) (X2 m c) := by
  refine (W6_arr m ρ c 2).trans ((Cert.KernelIdeal.ScaleRows.scale_array (V5 m ρ) c).trans ?_)
  have e1 : Cert.KernelIdeal.ScaleRows.msgIn (V5 m ρ) c = val_main_v37 (F := Ideal) (X0 m c) (X1 m c) (X2 m c) := entry2_gathered m ρ c
  have e2 : Cert.KernelIdeal.ScaleRows.normIn (V5 m ρ) c
      = shapeCast _ (val_main_v30 (F := Ideal) (X1 m c)) shapeCasts_S1700000_S1700000x1 := entry2_factor m ρ c
  funext i
  obtain ⟨n, q, rfl⟩ : ∃ (n : Fin 1700000) (q : Fin 64), i = ix2 n q := ⟨i 0, i 1, eq_ix2 i⟩
  rw [Cert.KernelIdeal.ScaleRows.scaled_apply, e1, e2, val_main_v40_apply, val_main_v39_apply, val_main_v38_apply]
  generalize val_main_v30 (F := Ideal) (X1 m c) = y
  rw [column_read y n q]
  rfl
theorem exit2_col (c : Dev nD) : W6 m ρ c (Proc.devRef .tc main_v6) = val_main_v7 (F := Ideal) (X1 m c) :=
  (W6_of_ne m ρ c main_v6 (by decide)).trans (entry2_col m ρ c)
theorem exit2_arg3 (c : Dev nD) : W6 m ρ c (Proc.devRef .tc main_arg3) = X3 m c :=
  (W6_of_ne m ρ c main_arg3 (by decide)).trans (entry2_arg3 m ρ c)

/-! ## At the third region's entry -/

theorem entry3_aggregated (c : Dev nD) :
    W7 m ρ c (Proc.devRef .tc main_v42) = val_main_v43 (F := Ideal) (X0 m c) (X1 m c) (X2 m c) :=
  Cert.KernelIdeal.HostStages.aggregated_stage (W6 m ρ c) (X0 m c) (X1 m c) (X2 m c) (exit2_col m ρ c) (exit2_messages m ρ c)
theorem entry3_bias (c : Dev nD) :
    W7 m ρ c (Proc.devRef .tc main_v43) = shapeCast _ (X3 m c) shapeCasts_S64_S1x64 := by
  refine (Cert.KernelIdeal.HostStages.bias_stage (W6 m ρ c)).trans ?_
  rw [exit2_arg3 m ρ c]

/-! ## The result -/

/-- THE KERNEL PROGRAM'S RESULT: the array the last region leaves is the plain program's last stage of the arguments. -/
theorem result_eq (c : Dev nD) :
    W8 m ρ c (Proc.devRef .tc main_v44) = val_main_v48 (F := Ideal) (X0 m c) (X1 m c) (X2 m c) (X3 m c) := by
  refine (W8_arr m ρ c 2).trans ?_
  have e1 : Cert.KernelIdeal.ActRows.aggIn (V7 m ρ) c = val_main_v43 (F := Ideal) (X0 m c) (X1 m c) (X2 m c) := entry3_aggregated m ρ c
  have e2 : Cert.KernelIdeal.ActRows.biasIn (V7 m ρ) c = shapeCast _ (X3 m c) shapeCasts_S64_S1x64 := entry3_bias m ρ c
  funext i
  obtain ⟨n, q, rfl⟩ : ∃ (n : Fin 100000) (q : Fin 64), i = ix2 n q := ⟨i 0, i 1, eq_ix2 i⟩
  refine (Cert.KernelIdeal.ActRows.act_array (V7 m ρ) c n q).trans ?_
  rw [e1, e2]
  refine Eq.trans ?_ (Cert.RefAct.ref_act (X0 m c) (X1 m c) (X2 m c) (X3 m c) n q).symm
  refine Cert.Lib.rowLogSoftmax_congr (fun k => ?_) q
  rw [shapeCast_a_1a_apply (X3 m c) shapeCasts_S64_S1x64 (0 : Fin 1) k]

end Cert.KernelValue

end
-- ==== Proof.RefRunStages.lean ====
/-
  The plain program's run, stage by stage.

  The plain program is one straight line of 78 array operations. It is cut here into nine consecutive stretches. Run
  from ANY contents of the buffers, each stretch leaves in the buffers that later stretches read the stage of the same
  name: the value the operation that writes the buffer computes, as a function of the program's four arguments, given
  that the buffers the stretch reads from earlier stretches already hold their stages. Chained, the line leaves the
  last stage (the log-softmax of the rectified, biased aggregate) in the result buffer and never writes an argument.
-/
import proofs.«124914_j31610959299128_1_alg».proof.Proof.RefRun
import proofs.«124914_j31610959299128_1_alg».proof.Proof.RefRead
import Idealize.ShloMosaic.Lib.StableHlo.Run
import Idealize.ShloMosaic.Lib.Pipeline.Frame

set_option maxRecDepth 16384

noncomputable section

namespace Cert.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## The line cut into stretches -/

/-- Operations 1–6: the feature projection, the two rows of the edge list as vectors, and the node numbers. -/
abbrev stProject : List (HloOp τ sig (Elt F)) :=
  [ binary main_arg0 main_arg2 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_v5 (iotaInDim S100000 32 0) ]

/-- Operations 7–8: sources and targets with one self-loop per node appended. -/
abbrev stLoops : List (HloOp τ sig (Elt F)) :=
  [ binary main_v2 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v4 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 9–22: the degrees (ones added up at the targets) and their inverse square roots, zero where the degree is zero. -/
abbrev stDegree : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf (F := F) .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Operations 23–41: the per-edge coefficient, the product of the inverse square roots at the edge's two ends. -/
abbrev stCoef : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Operations 42–53: the projected features gathered at the sources and scaled by the coefficient. -/
abbrev stMsg : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)) ]

/-- Operations 54–60: the messages added up at the targets, and the bias added to every row. -/
abbrev stAgg : List (HloOp τ sig (Elt F)) :=
  [ nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- Operations 61–63: the rectifier. -/
abbrev stRelu : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- Operations 64–71: every row less its largest entry. -/
abbrev stLsmMax : List (HloOp τ sig (Elt F)) :=
  [ TRef.nullary (TRef.of (T := ⟨S_, .f32⟩) main_call2_cst) (constant S_ .f32 0xFF800000#32),
    TRef.binary (TRef.of (T := ⟨S100000x64, .f32⟩) main_v47) (TRef.of (T := ⟨S_, .f32⟩) main_call2_cst) (TRef.of (T := ⟨S100000, .f32⟩) main_call2_v0) (fun x v => Host.reduce FloatOps.maximumf x v reducesTo_S100000x64_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x64, .f32⟩) main_call2_v4) (broadcastInDim S100000x64 ![0, 1] bcast_S100000x1_S100000x64_0_1),
    TRef.binary (TRef.of (T := ⟨S100000x64, .f32⟩) main_v47) (TRef.of (T := ⟨S100000x64, .f32⟩) main_call2_v4) (TRef.of (T := ⟨S100000x64, .f32⟩) main_call2_v5) subf ]

/-- Operations 72–78: less the logarithm of the row's sum of exponentials. -/
abbrev stLsmSum : List (HloOp τ sig (Elt F)) :=
  [ TRef.unary (TRef.of (T := ⟨S100000x64, .f32⟩) main_call2_v5) (TRef.of (T := ⟨S100000x64, .f32⟩) main_call2_v6) Host.exp,
    TRef.nullary (TRef.of (T := ⟨S_, .f32⟩) main_call2_cst_1) (constant S_ .f32 0x00000000#32),
    TRef.binary (TRef.of (T := ⟨S100000x64, .f32⟩) main_call2_v6) (TRef.of (T := ⟨S_, .f32⟩) main_call2_cst_1) (TRef.of (T := ⟨S100000, .f32⟩) main_call2_v7) (fun x v => Host.reduceAdd x v reducesTo_S100000x64_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x64, .f32⟩) main_call2_v10) (broadcastInDim S100000x64 ![0, 1] bcast_S100000x1_S100000x64_0_1),
    TRef.binary (TRef.of (T := ⟨S100000x64, .f32⟩) main_call2_v5) (TRef.of (T := ⟨S100000x64, .f32⟩) main_call2_v10) (TRef.of (T := ⟨S100000x64, .f32⟩) main_v48) subf ]

/-- The line is its stretches, one after the other. -/
theorem ops_cut : (ops : List (HloOp τ sig (Elt F)))
    = stProject ++ (stLoops ++ (stDegree ++ (stCoef ++ (stMsg ++ (stAgg ++ (stRelu ++ (stLsmMax ++ stLsmSum))))))) := rfl

/-! ## Each stretch, run from any contents -/

/-! ### The log-softmax's operations carry their buffers' types along

Its operations are stated over references that carry the type of the value they hold; a value is moved to the buffer's own
type and back along an equation of types. Moving there and back is the identity, and so is either move at a reference
whose buffer has the value's type by computation. -/

/-- Moved to the buffer's type and back, a value is itself. -/
theorem ofBuf_toBuf {T : BufTy} (x : TRef sig T) (v : T.Contents (Elt F)) : x.ofBuf (x.toBuf v) = v := by
  obtain ⟨r, h, h2, h3⟩ := x
  subst h
  rfl

/-- At the rectified rows' buffer the move from the buffer's type is the identity. -/
theorem ofBuf_main_v47 (v : (⟨S100000x64, .f32⟩ : BufTy).Contents (Elt F)) :
    (TRef.of (sig := sig) (T := ⟨S100000x64, .f32⟩) main_v47).ofBuf v = v := rfl
/-- At the shifted rows' buffer both moves are the identity. -/
theorem toBuf_main_call2_v5 (v : (⟨S100000x64, .f32⟩ : BufTy).Contents (Elt F)) :
    (TRef.of (sig := sig) (T := ⟨S100000x64, .f32⟩) main_call2_v5).toBuf v = v := rfl
theorem ofBuf_main_call2_v5 (v : (⟨S100000x64, .f32⟩ : BufTy).Contents (Elt F)) :
    (TRef.of (sig := sig) (T := ⟨S100000x64, .f32⟩) main_call2_v5).ofBuf v = v := rfl
/-- At the result's buffer the move to the buffer's type is the identity. -/
theorem toBuf_main_v48 (v : (⟨S100000x64, .f32⟩ : BufTy).Contents (Elt F)) :
    (TRef.of (sig := sig) (T := ⟨S100000x64, .f32⟩) main_v48).toBuf v = v := rfl

section Stages
variable (Wa : Valuation τ sig (Elt F))
variable (x0 : (⟨S100000x128, .f32⟩ : BufTy).Contents (Elt F)) (x1 : (⟨S2x1600000, .i32⟩ : BufTy).Contents (Elt F))
  (x2 : (⟨S128x64, .f32⟩ : BufTy).Contents (Elt F)) (x3 : (⟨S64, .f32⟩ : BufTy).Contents (Elt F))

/-! ### Operations 1–6 -/

/-- The projected features. -/
theorem project_v0 :
    after stProject Wa (Proc.devRef .tc main_v0) = val_main_v0 (F := F) (Wa (Proc.devRef .tc main_arg0)) (Wa (Proc.devRef .tc main_arg2)) := by
  dsimp only [stProject]; after_results; try rfl
/-- The sources, as a vector. -/
theorem project_v2 :
    after stProject Wa (Proc.devRef .tc main_v2) = val_main_v2 (F := F) (Wa (Proc.devRef .tc main_arg1)) := by
  dsimp only [stProject]; after_results; try rfl
/-- The targets, as a vector. -/
theorem project_v4 :
    after stProject Wa (Proc.devRef .tc main_v4) = val_main_v4 (F := F) (Wa (Proc.devRef .tc main_arg1)) := by
  dsimp only [stProject]; after_results; try rfl
/-- The node numbers. -/
theorem project_v5 :
    after stProject Wa (Proc.devRef .tc main_v5) = val_main_v5 (F := F) := by
  dsimp only [stProject]; after_results; try rfl
theorem project_keeps_arg0 : after stProject Wa (Proc.devRef .tc main_arg0) = Wa (Proc.devRef .tc main_arg0) := by
  dsimp only [stProject]; after_results_simp
theorem project_keeps_arg1 : after stProject Wa (Proc.devRef .tc main_arg1) = Wa (Proc.devRef .tc main_arg1) := by
  dsimp only [stProject]; after_results_simp
theorem project_keeps_arg2 : after stProject Wa (Proc.devRef .tc main_arg2) = Wa (Proc.devRef .tc main_arg2) := by
  dsimp only [stProject]; after_results_simp
theorem project_keeps_arg3 : after stProject Wa (Proc.devRef .tc main_arg3) = Wa (Proc.devRef .tc main_arg3) := by
  dsimp only [stProject]; after_results_simp

/-! ### Operations 7–8 -/

/-- The sources with the self-loops appended. -/
theorem loops_v6 (h2 : Wa (Proc.devRef .tc main_v2) = val_main_v2 (F := F) x1) (h5 : Wa (Proc.devRef .tc main_v5) = val_main_v5 (F := F)) :
    after stLoops Wa (Proc.devRef .tc main_v6) = val_main_v6 (F := F) x1 := by
  dsimp only [stLoops]; after_results; rw [h2, h5]; rfl
/-- The targets with the self-loops appended. -/
theorem loops_v7 (h4 : Wa (Proc.devRef .tc main_v4) = val_main_v4 (F := F) x1) (h5 : Wa (Proc.devRef .tc main_v5) = val_main_v5 (F := F)) :
    after stLoops Wa (Proc.devRef .tc main_v7) = val_main_v7 (F := F) x1 := by
  dsimp only [stLoops]; after_results; rw [h4, h5]; rfl
theorem loops_keeps_v0 : after stLoops Wa (Proc.devRef .tc main_v0) = Wa (Proc.devRef .tc main_v0) := by
  dsimp only [stLoops]; after_results_simp
theorem loops_keeps_arg0 : after stLoops Wa (Proc.devRef .tc main_arg0) = Wa (Proc.devRef .tc main_arg0) := by
  dsimp only [stLoops]; after_results_simp
theorem loops_keeps_arg1 : after stLoops Wa (Proc.devRef .tc main_arg1) = Wa (Proc.devRef .tc main_arg1) := by
  dsimp only [stLoops]; after_results_simp
theorem loops_keeps_arg2 : after stLoops Wa (Proc.devRef .tc main_arg2) = Wa (Proc.devRef .tc main_arg2) := by
  dsimp only [stLoops]; after_results_simp
theorem loops_keeps_arg3 : after stLoops Wa (Proc.devRef .tc main_arg3) = Wa (Proc.devRef .tc main_arg3) := by
  dsimp only [stLoops]; after_results_simp

/-! ### Operations 9–22 -/

/-- The inverse square roots of the degrees, zero where a node has no edge. -/
theorem degree_v15 (h7 : Wa (Proc.devRef .tc main_v7) = val_main_v7 (F := F) x1) :
    after stDegree Wa (Proc.devRef .tc main_v15) = val_main_v15 (F := F) x1 := by
  dsimp only [stDegree]; after_results_simp; rw [h7]; rfl
theorem degree_keeps_v0 : after stDegree Wa (Proc.devRef .tc main_v0) = Wa (Proc.devRef .tc main_v0) := by
  dsimp only [stDegree]; after_results_simp
theorem degree_keeps_v6 : after stDegree Wa (Proc.devRef .tc main_v6) = Wa (Proc.devRef .tc main_v6) := by
  dsimp only [stDegree]; after_results_simp
theorem degree_keeps_v7 : after stDegree Wa (Proc.devRef .tc main_v7) = Wa (Proc.devRef .tc main_v7) := by
  dsimp only [stDegree]; after_results_simp
theorem degree_keeps_arg0 : after stDegree Wa (Proc.devRef .tc main_arg0) = Wa (Proc.devRef .tc main_arg0) := by
  dsimp only [stDegree]; after_results_simp
theorem degree_keeps_arg1 : after stDegree Wa (Proc.devRef .tc main_arg1) = Wa (Proc.devRef .tc main_arg1) := by
  dsimp only [stDegree]; after_results_simp
theorem degree_keeps_arg2 : after stDegree Wa (Proc.devRef .tc main_arg2) = Wa (Proc.devRef .tc main_arg2) := by
  dsimp only [stDegree]; after_results_simp
theorem degree_keeps_arg3 : after stDegree Wa (Proc.devRef .tc main_arg3) = Wa (Proc.devRef .tc main_arg3) := by
  dsimp only [stDegree]; after_results_simp

/-! ### Operations 23–41 -/

/-- The per-edge coefficient. -/
theorem coef_v30 (h6 : Wa (Proc.devRef .tc main_v6) = val_main_v6 (F := F) x1) (h7 : Wa (Proc.devRef .tc main_v7) = val_main_v7 (F := F) x1)
    (h15 : Wa (Proc.devRef .tc main_v15) = val_main_v15 (F := F) x1) :
    after stCoef Wa (Proc.devRef .tc main_v30) = val_main_v30 (F := F) x1 := by
  dsimp only [stCoef]; after_results_simp; rw [h6, h7, h15]; rfl
theorem coef_keeps_v0 : after stCoef Wa (Proc.devRef .tc main_v0) = Wa (Proc.devRef .tc main_v0) := by
  dsimp only [stCoef]; after_results_simp
theorem coef_keeps_v6 : after stCoef Wa (Proc.devRef .tc main_v6) = Wa (Proc.devRef .tc main_v6) := by
  dsimp only [stCoef]; after_results_simp
theorem coef_keeps_v7 : after stCoef Wa (Proc.devRef .tc main_v7) = Wa (Proc.devRef .tc main_v7) := by
  dsimp only [stCoef]; after_results_simp
theorem coef_keeps_arg0 : after stCoef Wa (Proc.devRef .tc main_arg0) = Wa (Proc.devRef .tc main_arg0) := by
  dsimp only [stCoef]; after_results_simp
theorem coef_keeps_arg1 : after stCoef Wa (Proc.devRef .tc main_arg1) = Wa (Proc.devRef .tc main_arg1) := by
  dsimp only [stCoef]; after_results_simp
theorem coef_keeps_arg2 : after stCoef Wa (Proc.devRef .tc main_arg2) = Wa (Proc.devRef .tc main_arg2) := by
  dsimp only [stCoef]; after_results_simp
theorem coef_keeps_arg3 : after stCoef Wa (Proc.devRef .tc main_arg3) = Wa (Proc.devRef .tc main_arg3) := by
  dsimp only [stCoef]; after_results_simp

/-! ### Operations 42–53 -/

/-- The scaled messages, one row per edge. -/
theorem msg_v40 (h0 : Wa (Proc.devRef .tc main_v0) = val_main_v0 (F := F) x0 x2) (h6 : Wa (Proc.devRef .tc main_v6) = val_main_v6 (F := F) x1)
    (h30 : Wa (Proc.devRef .tc main_v30) = val_main_v30 (F := F) x1) :
    after stMsg Wa (Proc.devRef .tc main_v40) = val_main_v40 (F := F) x0 x1 x2 := by
  dsimp only [stMsg]; after_results_simp; rw [h0, h6, h30]; rfl
theorem msg_keeps_v7 : after stMsg Wa (Proc.devRef .tc main_v7) = Wa (Proc.devRef .tc main_v7) := by
  dsimp only [stMsg]; after_results_simp
theorem msg_keeps_arg0 : after stMsg Wa (Proc.devRef .tc main_arg0) = Wa (Proc.devRef .tc main_arg0) := by
  dsimp only [stMsg]; after_results_simp
theorem msg_keeps_arg1 : after stMsg Wa (Proc.devRef .tc main_arg1) = Wa (Proc.devRef .tc main_arg1) := by
  dsimp only [stMsg]; after_results_simp
theorem msg_keeps_arg2 : after stMsg Wa (Proc.devRef .tc main_arg2) = Wa (Proc.devRef .tc main_arg2) := by
  dsimp only [stMsg]; after_results_simp
theorem msg_keeps_arg3 : after stMsg Wa (Proc.devRef .tc main_arg3) = Wa (Proc.devRef .tc main_arg3) := by
  dsimp only [stMsg]; after_results_simp

/-! ### Operations 54–60 -/

/-- The aggregate with the bias added. -/
theorem agg_v46 (h7 : Wa (Proc.devRef .tc main_v7) = val_main_v7 (F := F) x1) (h40 : Wa (Proc.devRef .tc main_v40) = val_main_v40 (F := F) x0 x1 x2)
    (h3 : Wa (Proc.devRef .tc main_arg3) = x3) :
    after stAgg Wa (Proc.devRef .tc main_v46) = val_main_v46 (F := F) x0 x1 x2 x3 := by
  dsimp only [stAgg]; after_results_simp; rw [h7, h40, h3]; rfl
theorem agg_keeps_arg0 : after stAgg Wa (Proc.devRef .tc main_arg0) = Wa (Proc.devRef .tc main_arg0) := by
  dsimp only [stAgg]; after_results_simp
theorem agg_keeps_arg1 : after stAgg Wa (Proc.devRef .tc main_arg1) = Wa (Proc.devRef .tc main_arg1) := by
  dsimp only [stAgg]; after_results_simp
theorem agg_keeps_arg2 : after stAgg Wa (Proc.devRef .tc main_arg2) = Wa (Proc.devRef .tc main_arg2) := by
  dsimp only [stAgg]; after_results_simp
theorem agg_keeps_arg3 : after stAgg Wa (Proc.devRef .tc main_arg3) = Wa (Proc.devRef .tc main_arg3) := by
  dsimp only [stAgg]; after_results_simp

/-! ### Operations 61–63 -/

/-- The rectified rows. -/
theorem relu_v47 (h46 : Wa (Proc.devRef .tc main_v46) = val_main_v46 (F := F) x0 x1 x2 x3) :
    after stRelu Wa (Proc.devRef .tc main_v47) = val_main_v47 (F := F) x0 x1 x2 x3 := by
  dsimp only [stRelu]; after_results_simp; rw [h46]; rfl
theorem relu_keeps_arg0 : after stRelu Wa (Proc.devRef .tc main_arg0) = Wa (Proc.devRef .tc main_arg0) := by
  dsimp only [stRelu]; after_results_simp
theorem relu_keeps_arg1 : after stRelu Wa (Proc.devRef .tc main_arg1) = Wa (Proc.devRef .tc main_arg1) := by
  dsimp only [stRelu]; after_results_simp
theorem relu_keeps_arg2 : after stRelu Wa (Proc.devRef .tc main_arg2) = Wa (Proc.devRef .tc main_arg2) := by
  dsimp only [stRelu]; after_results_simp
theorem relu_keeps_arg3 : after stRelu Wa (Proc.devRef .tc main_arg3) = Wa (Proc.devRef .tc main_arg3) := by
  dsimp only [stRelu]; after_results_simp

/-! ### Operations 64–71 -/

/-- Every row less its largest entry. -/
theorem lsm_shifted (h47 : Wa (Proc.devRef .tc main_v47) = val_main_v47 (F := F) x0 x1 x2 x3) :
    after stLsmMax Wa (Proc.devRef .tc main_call2_v5) = val_main_call2_v5 (F := F) x0 x1 x2 x3 := by
  dsimp only [stLsmMax]; after_results_simp; rw [h47]
  repeat rw [ofBuf_toBuf]
  rw [ofBuf_main_v47, toBuf_main_call2_v5]
  unfold val_main_call2_v5 val_main_call2_v4 val_main_call2_v3 val_main_call2_v2 val_main_call2_v1 val_main_call2_v0 val_main_call2_cst_0 val_main_call2_cst
  rfl

/-! ### Operations 72–78 -/

/-- The log-softmax of every row. -/
theorem lsm_v48 (h5 : Wa (Proc.devRef .tc main_call2_v5) = val_main_call2_v5 (F := F) x0 x1 x2 x3) :
    after stLsmSum Wa (Proc.devRef .tc main_v48) = val_main_v48 (F := F) x0 x1 x2 x3 := by
  dsimp only [stLsmSum]; after_results_simp; rw [h5]
  repeat rw [ofBuf_toBuf]
  rw [ofBuf_main_call2_v5, toBuf_main_v48]
  unfold val_main_v48 val_main_call2_v10 val_main_call2_v9 val_main_call2_v8 val_main_call2_v7 val_main_call2_v6 val_main_call2_cst_1
  rfl
theorem lsmMax_keeps_arg0 : after stLsmMax Wa (Proc.devRef .tc main_arg0) = Wa (Proc.devRef .tc main_arg0) := by
  dsimp only [stLsmMax]; after_results_simp
theorem lsmMax_keeps_arg1 : after stLsmMax Wa (Proc.devRef .tc main_arg1) = Wa (Proc.devRef .tc main_arg1) := by
  dsimp only [stLsmMax]; after_results_simp
theorem lsmMax_keeps_arg2 : after stLsmMax Wa (Proc.devRef .tc main_arg2) = Wa (Proc.devRef .tc main_arg2) := by
  dsimp only [stLsmMax]; after_results_simp
theorem lsmMax_keeps_arg3 : after stLsmMax Wa (Proc.devRef .tc main_arg3) = Wa (Proc.devRef .tc main_arg3) := by
  dsimp only [stLsmMax]; after_results_simp
theorem lsmSum_keeps_arg0 : after stLsmSum Wa (Proc.devRef .tc main_arg0) = Wa (Proc.devRef .tc main_arg0) := by
  dsimp only [stLsmSum]; after_results_simp
theorem lsmSum_keeps_arg1 : after stLsmSum Wa (Proc.devRef .tc main_arg1) = Wa (Proc.devRef .tc main_arg1) := by
  dsimp only [stLsmSum]; after_results_simp
theorem lsmSum_keeps_arg2 : after stLsmSum Wa (Proc.devRef .tc main_arg2) = Wa (Proc.devRef .tc main_arg2) := by
  dsimp only [stLsmSum]; after_results_simp
theorem lsmSum_keeps_arg3 : after stLsmSum Wa (Proc.devRef .tc main_arg3) = Wa (Proc.devRef .tc main_arg3) := by
  dsimp only [stLsmSum]; after_results_simp

end Stages

/-! ## The whole line -/

section Line
variable (W : Valuation τ sig (Elt F))

/-- The line leaves the last stage, of the arguments as the line finds them, in the result buffer: each stretch is fed what
    the stretches before it left. -/
theorem ops_result :
    after ops W (Proc.devRef .tc main_v48)
      = val_main_v48 (F := F) (W (Proc.devRef .tc main_arg0)) (W (Proc.devRef .tc main_arg1)) (W (Proc.devRef .tc main_arg2)) (W (Proc.devRef .tc main_arg3)) := by
  rw [ops_cut]
  simp only [StableHlo.after_append]
  -- after operations 1–6
  have a0 := project_v0 W
  have a2 := project_v2 W
  have a4 := project_v4 W
  have a5 := project_v5 W
  have a3 := project_keeps_arg3 W
  -- after operations 7–8
  have b6 := loops_v6 (after stProject W) _ a2 a5
  have b7 := loops_v7 (after stProject W) _ a4 a5
  have b0 := (loops_keeps_v0 (after stProject W)).trans a0
  have b3 := (loops_keeps_arg3 (after stProject W)).trans a3
  -- after operations 9–22
  have c15 := degree_v15 (after stLoops (after stProject W)) _ b7
  have c0 := (degree_keeps_v0 (after stLoops (after stProject W))).trans b0
  have c6 := (degree_keeps_v6 (after stLoops (after stProject W))).trans b6
  have c7 := (degree_keeps_v7 (after stLoops (after stProject W))).trans b7
  have c3 := (degree_keeps_arg3 (after stLoops (after stProject W))).trans b3
  -- after operations 23–41
  have d30 := coef_v30 (after stDegree (after stLoops (after stProject W))) _ c6 c7 c15
  have d0 := (coef_keeps_v0 (after stDegree (after stLoops (after stProject W)))).trans c0
  have d6 := (coef_keeps_v6 (after stDegree (after stLoops (after stProject W)))).trans c6
  have d7 := (coef_keeps_v7 (after stDegree (after stLoops (after stProject W)))).trans c7
  have d3 := (coef_keeps_arg3 (after stDegree (after stLoops (after stProject W)))).trans c3
  -- after operations 42–53
  have e40 := msg_v40 (after stCoef (after stDegree (after stLoops (after stProject W)))) _ _ _ d0 d6 d30
  have e7 := (msg_keeps_v7 (after stCoef (after stDegree (after stLoops (after stProject W))))).trans d7
  have e3 := (msg_keeps_arg3 (after stCoef (after stDegree (after stLoops (after stProject W))))).trans d3
  -- after operations 54–60, 61–63, 64–71, 72–78
  have f46 := agg_v46 (after stMsg (after stCoef (after stDegree (after stLoops (after stProject W))))) _ _ _ _ e7 e40 e3
  have g47 := relu_v47 (after stAgg (after stMsg (after stCoef (after stDegree (after stLoops (after stProject W)))))) _ _ _ _ f46
  have h5 := lsm_shifted (after stRelu (after stAgg (after stMsg (after stCoef (after stDegree (after stLoops (after stProject W))))))) _ _ _ _ g47
  exact lsm_v48 (after stLsmMax (after stRelu (after stAgg (after stMsg (after stCoef (after stDegree (after stLoops (after stProject W)))))))) _ _ _ _ h5

/-- No operation of the line writes argument 0. -/
theorem ops_keeps_arg0 : after ops W (Proc.devRef .tc main_arg0) = W (Proc.devRef .tc main_arg0) := by
  rw [ops_cut]
  simp only [StableHlo.after_append]
  rw [lsmSum_keeps_arg0, lsmMax_keeps_arg0, relu_keeps_arg0, agg_keeps_arg0, msg_keeps_arg0, coef_keeps_arg0, degree_keeps_arg0, loops_keeps_arg0, project_keeps_arg0]
/-- No operation of the line writes argument 1. -/
theorem ops_keeps_arg1 : after ops W (Proc.devRef .tc main_arg1) = W (Proc.devRef .tc main_arg1) := by
  rw [ops_cut]
  simp only [StableHlo.after_append]
  rw [lsmSum_keeps_arg1, lsmMax_keeps_arg1, relu_keeps_arg1, agg_keeps_arg1, msg_keeps_arg1, coef_keeps_arg1, degree_keeps_arg1, loops_keeps_arg1, project_keeps_arg1]
/-- No operation of the line writes argument 2. -/
theorem ops_keeps_arg2 : after ops W (Proc.devRef .tc main_arg2) = W (Proc.devRef .tc main_arg2) := by
  rw [ops_cut]
  simp only [StableHlo.after_append]
  rw [lsmSum_keeps_arg2, lsmMax_keeps_arg2, relu_keeps_arg2, agg_keeps_arg2, msg_keeps_arg2, coef_keeps_arg2, degree_keeps_arg2, loops_keeps_arg2, project_keeps_arg2]
/-- No operation of the line writes argument 3. -/
theorem ops_keeps_arg3 : after ops W (Proc.devRef .tc main_arg3) = W (Proc.devRef .tc main_arg3) := by
  rw [ops_cut]
  simp only [StableHlo.after_append]
  rw [lsmSum_keeps_arg3, lsmMax_keeps_arg3, relu_keeps_arg3, agg_keeps_arg3, msg_keeps_arg3, coef_keeps_arg3, degree_keeps_arg3, loops_keeps_arg3, project_keeps_arg3]

end Line

/-! ## The run -/

/-- On every device, for any float values, from any memory with zero counters: every weakly fair execution of the plain
    program terminates with the result buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = val_main_v48 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (ops_result (launchContents m c)),
      (h c main_arg0).trans (ops_keeps_arg0 (launchContents m c)),
      (h c main_arg1).trans (ops_keeps_arg1 (launchContents m c)),
      (h c main_arg2).trans (ops_keeps_arg2 (launchContents m c)),
      (h c main_arg3).trans (ops_keeps_arg3 (launchContents m c))⟩)
    (run_seq scopedRefs_eq scopedSems_eq defs main (fun _ => ops) main_eq (fun _ => ops_sub) m ρ)

end Cert.RefRun

end
-- ==== Proof.lean ====
/-
  A graph convolution with self-loops and symmetric normalisation, then a rectifier and a log-softmax over the 64
  features, computed two ways and shown equal over the extended reals.

  The plain program projects the features (`X · W`), appends one self-loop per node to the edge list, counts each
  node's in-degree by a scatter-addition of ones, takes the inverse square roots (zero where the degree is not
  positive), gathers the projected rows at the edges' sources, scales each by the product of the two endpoints'
  inverse square roots, adds the scaled rows up at the edges' targets, adds the bias, rectifies, and takes the
  log-softmax of every row. The kernel program does the same host operations on the same index vectors, and replaces
  three dense passes by tiled regions: the projection (ten tiles of ten thousand rows, operands narrowed to bf16 before
  the matrix unit, which over the extended reals is the identity), the scaling of the 1.7 million gathered rows (a
  hundred tiles, the factors kept as a column and spread over the features) and the bias, rectifier and log-softmax
  (ten tiles, the bias kept as one row). A tile's row is computed from the same row of the same operands by the same
  exact operations as the whole array's row, and the tiles cover their arrays, so every region leaves what the plain
  program's operation leaves (Proof/MatRows, Proof/ScaleRows, Proof/ActRows); the host stretches between them are the
  plain program's own operations (Proof/HostStages), and so the result arrays agree (Proof/KernelValue). No law of the
  reals beyond `max ⊥ x = x` and `0 + x = x` is used: the two programs differ only in tiling and in how a vector is
  laid out as a row or a column, so the precondition (finite inputs) is never opened.

  The three frames: the two kernel programs' are the launch over their segments; the plain program's is its run with
  the result dropped. The idealization rewrote no operation, so `preserves` is trivially true.
-/
import proofs.«124914_j31610959299128_1_alg».proof.Defs
import proofs.«124914_j31610959299128_1_alg».proof.Proof.Gen.Kernel
import proofs.«124914_j31610959299128_1_alg».proof.Proof.Gen.Kernel.Skeleton
import proofs.«124914_j31610959299128_1_alg».proof.Proof.Gen.Kernel.Launch
import proofs.«124914_j31610959299128_1_alg».proof.Proof.Gen.Kernel.Points
import proofs.«124914_j31610959299128_1_alg».proof.Proof.Gen.Kernel.Frame
import proofs.«124914_j31610959299128_1_alg».proof.Proof.Gen.KernelIdeal
import proofs.«124914_j31610959299128_1_alg».proof.Proof.Gen.KernelIdeal.Skeleton
import proofs.«124914_j31610959299128_1_alg».proof.Proof.Gen.KernelIdeal.Launch
import proofs.«124914_j31610959299128_1_alg».proof.Proof.Gen.KernelIdeal.Points
import proofs.«124914_j31610959299128_1_alg».proof.Proof.Gen.KernelIdeal.Frame
import proofs.«124914_j31610959299128_1_alg».proof.Proof.Gen.ReferenceIdeal
import proofs.«124914_j31610959299128_1_alg».proof.Proof.Gen.Pre_finite_inputs
import proofs.«124914_j31610959299128_1_alg».proof.Proof.KernelRun
import proofs.«124914_j31610959299128_1_alg».proof.Proof.KernelValue
import proofs.«124914_j31610959299128_1_alg».proof.Proof.RefRunStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The plain program's frame: its run, the result dropped. -/
theorem frame_reference : Cert.frame_ReferenceIdeal := fun m ρ _ =>
  (θ_run Cert.ReferenceIdeal.defs _ _).mono (fun _ h c => (h c).2) (Cert.RefRun.run (F := Ideal) m ρ)

/-- Both programs end with the result at the plain program's last stage of the arguments: the kernel program by the
    walk through its regions and stretches, the plain program by its run; the arguments agree by hypothesis. -/
theorem algebraic : Cert.algebraic_KernelIdeal_ReferenceIdeal := by
  intro m ρ m' ρ' _ hagree
  refine ⟨fun c => Cert.ReferenceIdeal.ReadP.val_main_v48 (F := Ideal) (Cert.KernelValue.X0 m c) (Cert.KernelValue.X1 m c)
    (Cert.KernelValue.X2 m c) (Cert.KernelValue.X3 m c), ?_, ?_⟩
  · exact (θ_run Cert.KernelIdeal.defs _ _).mono
      (fun r h c => ⟨(h c).1.trans (Cert.KernelValue.result_eq m ρ c), (h c).2⟩) (Cert.KernelIdeal.Gen.run_result m ρ)
  · refine (θ_run Cert.ReferenceIdeal.defs _ _).mono (fun _ h c => ⟨(h c).1.trans ?_, (h c).2⟩)
      (Cert.RefRun.run (F := Ideal) m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
